-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x1x2048x2048 : Shape := ⟨4, ![4, 1, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel

variable [Facts]

def fn {F : FTy → Type} [FloatOps F] (main_arg0 : FVec F S4x8x2048x64 .f32) (main_arg1 : FVec F S4x8x2048x64 .f32) (main_arg2 : FVec F S4x8x2048x64 .f32) (main_arg3 : IVec S4x1x2048x2048 32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  main_v13
-- ==== Kernel.lean ====
abbrev S4x8x2048x64 : Shape := ⟨4, ![4, 8, 2048, 64]⟩
abbrev S4x1x2048x2048 : Shape := ⟨4, ![4, 1, 2048, 2048]⟩
abbrev S4x8x2048x2048 : Shape := ⟨4, ![4, 8, 2048, 2048]⟩
abbrev S1x1x256x64 : Shape := ⟨4, ![1, 1, 256, 64]⟩
abbrev S1x8x2048x64 : Shape := ⟨4, ![1, 8, 2048, 64]⟩
abbrev S1x1x256x2048 : Shape := ⟨4, ![1, 1, 256, 2048]⟩
abbrev S256x64 : Shape := ⟨2, ![256, 64]⟩
abbrev S1x1x2048x64 : Shape := ⟨4, ![1, 1, 2048, 64]⟩
abbrev S2048x64 : Shape := ⟨2, ![2048, 64]⟩
abbrev S256x2048 : Shape := ⟨2, ![256, 2048]⟩
abbrev S64x2048 : Shape := ⟨2, ![64, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i32⟩
  | .hbm, ⟨4, _⟩ => ⟨S4x8x2048x64, .f32⟩
  | .hbm, ⟨5, _⟩ => ⟨S4x8x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x8x2048x64, .f32⟩
  | .local _ .vmem, ⟨3, _⟩ => ⟨S1x8x2048x64, .f32⟩
  | .local _ .vmem, ⟨4, _⟩ => ⟨S1x1x256x2048, .i32⟩
  | .local _ .vmem, ⟨5, _⟩ => ⟨S1x1x256x2048, .i32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x2048, .f32⟩
  | .local _ .vmem, ⟨9, _⟩ => ⟨S1x1x256x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 4 → Nat :=
  let c0_3 : Index := 0#32
  let arg2 : BitVec 32 := BitVec.ofNat 32 (i 2).val
  let v2 : Index := Scalar.indexCast arg2
  let c0_4 : Index := 0#32
  let c0_5 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x8x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  bitsLt_bf16_f32 : FTy.bits .bf16 < FTy.bits .f32
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x1x2048x64.size a ≤ S1x8x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x8x2048x64.size a
  hwx0_0 : ∀ i : grid0.Coords, EltTy.bits .f32 = 32 ∨ (Rect.block (s := S4x8x2048x64) S1x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8x2048x64.size a ≤ S4x8x2048x64.size a
  hwx0_1 : ∀ i : grid0.Coords, EltTy.bits .f32 = 32 ∨ (Rect.block (s := S4x8x2048x64) S1x8x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8x2048x64.size a ≤ S4x8x2048x64.size a
  hwx0_2 : ∀ i : grid0.Coords, EltTy.bits .f32 = 32 ∨ (Rect.block (s := S4x8x2048x64) S1x8x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S4x1x2048x2048.size a
  hwx0_3 : ∀ i : grid0.Coords, EltTy.bits .i32 = 32 ∨ (Rect.block (s := S4x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x8x2048x64.size a
  hwx0_4 : ∀ i : grid0.Coords, EltTy.bits .f32 = 32 ∨ (Rect.block (s := S4x8x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x8x2048x2048.size a
  hwx0_5 : ∀ i : grid0.Coords, EltTy.bits .f32 = 32 ∨ (Rect.block (s := S4x8x2048x2048) S1x1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x1x2048x2048 : Shape := ⟨4, ![4, 1, 2048, 2048]⟩
abbrev S_ : Shape := ⟨0, ![]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S4x1x2048x2048, .i32⟩
  | .hbm, ⟨4, _⟩ => ⟨S_, .f32⟩
  | .hbm, ⟨5, _⟩ => ⟨S4x8x2048x64, .f32⟩
  | .hbm, ⟨6, _⟩ => ⟨S4x8x2048x64, .f32⟩
  | .hbm, ⟨7, _⟩ => ⟨S4x8x2048x2048, .f32⟩
  | .hbm, ⟨8, _⟩ => ⟨S_, .i32⟩
  | .hbm, ⟨9, _⟩ => ⟨S4x1x2048x2048, .i32⟩
  | .hbm, ⟨10, _⟩ => ⟨S4x1x2048x2048, .i1⟩
  | .hbm, ⟨11, _⟩ => ⟨S_, .f32⟩
  | .hbm, ⟨12, _⟩ => ⟨S4x8x2048x2048, .i1⟩
  | .hbm, ⟨13, _⟩ => ⟨S4x8x2048x2048, .f32⟩
  | .hbm, ⟨14, _⟩ => ⟨S4x8x2048x2048, .f32⟩
  | .hbm, ⟨15, _⟩ => ⟨S_, .f32⟩
  | .hbm, ⟨16, _⟩ => ⟨S4x8x2048, .f32⟩
  | .hbm, ⟨17, _⟩ => ⟨S_, .f32⟩
  | .hbm, ⟨18, _⟩ => ⟨S4x8x2048, .f32⟩
  | .hbm, ⟨19, _⟩ => ⟨S4x8x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048, .f32⟩
  | .hbm, ⟨26, _⟩ => ⟨S4x8x2048x1, .f32⟩
  | .hbm, ⟨27, _⟩ => ⟨S4x8x2048x2048, .f32⟩
  | .hbm, ⟨28, _⟩ => ⟨S4x8x2048x2048, .f32⟩
  | .hbm, ⟨29, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S4x8x2048x64 : S_.BroadcastsInDim S4x8x2048x64 (![] : Fin 0 → Fin S4x8x2048x64.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.KernelPieces.lean ====
/-
  What one grid point leaves in the two output tiles, as values of the blocks it loaded.

  At a grid point (b, qi, h) the body loads the query tile [1,1,256,64], the slab of head `h` out of the batch's resident
  key block [1,8,2048,64] and out of its value block, and the mask tile [1,1,256,2048]; it stores the softmax weights of the
  tile (one store covering the weight tile) and the weights times the values (one store covering the output tile). Each
  output tile therefore holds exactly its one store's payload, a pure function of the loaded blocks. The head's slab is the
  block read through the rectangle of extents [1,1,2048,64] at offsets (0, h, 0, 0).
-/
import proofs.«421843_j74612171866395_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz4 : (![0, 0, 0, 0] : Fin 4 → Nat) = fun _ => 0 := funext fun a => by fin_cases a <;> rfl

/-- The slab of the point's head out of a resident [1,8,2048,64] block: the block read through the rectangle of extents
    [1,1,2048,64] whose offset on the head axis is the point's third coordinate. -/
abbrev slab (i : grid0.Coords) (x : Vec F S1x8x2048x64 .f32) : Vec F S1x1x2048x64 .f32 :=
  View.ld x (Rect.unit (s := S1x8x2048x64) (k0_off1 i) S1x1x2048x64.size (k0_off1_inb i))

/-- The weight tile after the body: the payload of its one covering store, over the query tile, the head's key slab and
    the mask tile. -/
theorem weightTile_eq (c : Dev nD) (i : grid0.Coords) (arg3 : Memref sig .tc .vmem S1x1x256x64 .f32) (harg3 : arg3.IsWhole) (arg4 : Memref sig .tc .vmem S1x8x2048x64 .f32) (harg4 : arg4.IsWhole) (arg5 : Memref sig .tc .vmem S1x8x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x8x2048x64 .f32) (x2 : Vec F S1x8x2048x64 .f32) (x3 : Vec F S1x1x256x2048 .i32) :
    out0_A_5 c i arg3 harg3 arg4 harg4 arg5 harg5 arg6 harg6 arg7 harg7 arg8 harg8 x0 x1 x2 x3 = k0_pay4 x0 (slab i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x256x64) hz4, View.ld_unit_zero (S := S1x1x256x2048) hz4]
  rfl

/-- The output tile after the body: the payload of its one covering store — the weights of the tile (the same pure term
    the weight tile holds, before its recast) times the head's value slab. -/
theorem outTile_eq (c : Dev nD) (i : grid0.Coords) (arg3 : Memref sig .tc .vmem S1x1x256x64 .f32) (harg3 : arg3.IsWhole) (arg4 : Memref sig .tc .vmem S1x8x2048x64 .f32) (harg4 : arg4.IsWhole) (arg5 : Memref sig .tc .vmem S1x8x2048x64 .f32) (harg5 : arg5.IsWhole) (arg6 : Memref sig .tc .vmem S1x1x256x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x8x2048x64 .f32) (x2 : Vec F S1x8x2048x64 .f32) (x3 : Vec F S1x1x256x2048 .i32) :
    out0_A_4 c i arg3 harg3 arg4 harg4 arg5 harg5 arg6 harg6 arg7 harg7 arg8 harg8 x0 x1 x2 x3 = k0_pay1 (k0_pay2 (slab i x2)) (k0_pay3 x0 (slab i x1) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread,
    View.ld_unit_zero (S := S1x1x256x64) hz4, View.ld_unit_zero (S := S1x1x256x2048) hz4]
  rfl

end Cert.KernelIdeal.Pieces

end
-- ==== Proof.KernelGrid.lean ====
/-
  The grid's schedule in closed form: which block of each array a grid point touches.

  The 256 points of the grid (b, qi, h) ∈ 4 × 8 × 8 are numbered t = 64·b + 8·qi + h. Decided once over the points: the weight
  and output windows sit at block (b, h, qi, 0); the query window at the same block of q; the key and value windows at the
  batch block (b, 0, 0, 0); the mask window at block (b, 0, qi, 0); and the head offset the body computes for its slab of
  the resident key and value blocks is h.
-/
import proofs.«421843_j74612171866395_3_alg».proof.Proof.Gen.KernelIdeal.Frame

noncomputable section

open Idealize.ShloMosaic Idealize.ShloMosaic.TcCoe Idealize.SL.Sem

namespace Cert.KernelIdeal.Grid

open Cert.KernelIdeal Cert.KernelIdeal.Gen

/-- The weight window's block index at point `t` is (b, h, qi, 0) with b = t / 64, qi = t / 8 mod 8, h = t mod 8. -/
theorem idx_weight : ∀ t : Fin cfg0.N,
    win0_5.index t (0 : Fin 4) = t.val / 64 ∧ win0_5.index t (1 : Fin 4) = t.val % 8
    ∧ win0_5.index t (2 : Fin 4) = t.val / 8 % 8 ∧ win0_5.index t (3 : Fin 4) = 0 :=
  (by decide +kernel : ∀ t : Fin grid0.N, _)

/-- Every other window's block index in terms of the weight window's, and the head offset the body computes. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = 0
      ∧ win0_1.index t (2 : Fin 4) = 0 ∧ win0_1.index t (3 : Fin 4) = 0)
    ∧ (win0_2.index t (0 : Fin 4) = win0_5.index t (0 : Fin 4) ∧ win0_2.index t (1 : Fin 4) = 0
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (k0_off1 (grid0.coords t) (0 : Fin 4) = 0 ∧ k0_off1 (grid0.coords t) (1 : Fin 4) = win0_5.index t (1 : Fin 4)
      ∧ k0_off1 (grid0.coords t) (2 : Fin 4) = 0 ∧ k0_off1 (grid0.coords t) (3 : Fin 4) = 0) :=
  (by decide +kernel : ∀ t : Fin grid0.N, _)

end Cert.KernelIdeal.Grid

end
-- ==== Proof.AttentionSpec.lean ====
/-
  Masked softmax attention, row by row, on the extended reals.

  For one query row `qrow : Fin 64 → EReal`, the keys `K : Fin 2048 → Fin 64 → EReal` of its head, the row's mask
  words `mrow : Fin 2048 → BitVec 32` and the head's values `V : Fin 2048 → Fin 64 → EReal`:

    score j   = ∑ d, (qrow d · 1/8) · K j d
    masked j  = the fill value (the most negative finite f32) where the mask word is zero, else score j
    rowMax    = the maximum over j of masked j, folded from −∞
    expo j    = exp (masked j − rowMax)
    weight j  = expo j / ∑ j', expo j'
    out d     = ∑ j, weight j · V j d

  The whole arrays: the weight array [4, 8, 2048, 2048] at (b, h, i, j) is `weight j` of row (b, h, i), whose mask row is
  (b, 0, i) — one mask for all heads —, and the output array [4, 8, 2048, 64] at (b, h, i, d) is `out d` of that row.
  Every operation here is the exact one on the extended reals, so no finiteness of the inputs is needed to state it.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The scaled score of a query row against key `j`: the inner product over the 64 features of the row scaled by 1/8. -/
def score (qrow : Fin 64 → EReal) (K : Fin 2048 → Fin 64 → EReal) (j : Fin 2048) : EReal :=
  ∑ d : Fin 64, (qrow d * Ideal.ofBits .f32 0x3E000000#32) * K j d

/-- The score with masked keys (mask word zero) replaced by the most negative finite f32. -/
def masked (qrow : Fin 64 → EReal) (K : Fin 2048 → Fin 64 → EReal) (mrow : Fin 2048 → BitVec 32) (j : Fin 2048) : EReal :=
  Scalar.select (IntOp.cmpi .eq (mrow j) 0#32) (Ideal.ofBits .f32 0xFF7FFFFF#32) (score qrow K j)

/-- The row's maximum, folded from −∞. -/
def rowMax (qrow : Fin 64 → EReal) (K : Fin 2048 → Fin 64 → EReal) (mrow : Fin 2048 → BitVec 32) : EReal :=
  (Finset.univ : Finset (Fin 2048)).fold max (Ideal.ofBits .f32 0xFF800000#32) (masked qrow K mrow)

/-- The exponential of a masked score shifted by the row's maximum. -/
def expo (qrow : Fin 64 → EReal) (K : Fin 2048 → Fin 64 → EReal) (mrow : Fin 2048 → BitVec 32) (j : Fin 2048) : EReal :=
  Ideal.exp (masked qrow K mrow j - rowMax qrow K mrow)

/-- The softmax weight of key `j` in the row. -/
def weight (qrow : Fin 64 → EReal) (K : Fin 2048 → Fin 64 → EReal) (mrow : Fin 2048 → BitVec 32) (j : Fin 2048) : EReal :=
  Ideal.div (expo qrow K mrow j) (∑ j' : Fin 2048, expo qrow K mrow j')

/-- The row's output: the weighted sum of the values. -/
def outRow (qrow : Fin 64 → EReal) (K : Fin 2048 → Fin 64 → EReal) (mrow : Fin 2048 → BitVec 32)
    (V : Fin 2048 → Fin 64 → EReal) (d : Fin 64) : EReal :=
  ∑ j : Fin 2048, weight qrow K mrow j * V j d

/-- The weight array [4, 8, 2048, 2048] as one function of the query, key and mask arrays. -/
def weightArr (q k : (⟨4, ![4, 8, 2048, 64]⟩ : Shape).Idx → EReal) (mask : (⟨4, ![4, 1, 2048, 2048]⟩ : Shape).Idx → BitVec 32)
    (i : (⟨4, ![4, 8, 2048, 2048]⟩ : Shape).Idx) : EReal :=
  weight (fun d : Fin 64 => q (ix4 (i 0 : Fin 4) (i 1 : Fin 8) (i 2 : Fin 2048) d))
    (fun (j : Fin 2048) (d : Fin 64) => k (ix4 (i 0 : Fin 4) (i 1 : Fin 8) j d))
    (fun j : Fin 2048 => mask (ix4 (i 0 : Fin 4) (0 : Fin 1) (i 2 : Fin 2048) j)) (i 3 : Fin 2048)

/-- The output array [4, 8, 2048, 64] as one function of the query, key, value and mask arrays. -/
def outArr (q k v : (⟨4, ![4, 8, 2048, 64]⟩ : Shape).Idx → EReal) (mask : (⟨4, ![4, 1, 2048, 2048]⟩ : Shape).Idx → BitVec 32)
    (i : (⟨4, ![4, 8, 2048, 64]⟩ : Shape).Idx) : EReal :=
  outRow (fun d : Fin 64 => q (ix4 (i 0 : Fin 4) (i 1 : Fin 8) (i 2 : Fin 2048) d))
    (fun (j : Fin 2048) (d : Fin 64) => k (ix4 (i 0 : Fin 4) (i 1 : Fin 8) j d))
    (fun j : Fin 2048 => mask (ix4 (i 0 : Fin 4) (0 : Fin 1) (i 2 : Fin 2048) j))
    (fun (j : Fin 2048) (d : Fin 64) => v (ix4 (i 0 : Fin 4) (i 1 : Fin 8) j d)) (i 3 : Fin 64)

/-- −∞ is neutral for the maximum. -/
theorem max_negInf (y : EReal) : max (Ideal.ofBits .f32 0xFF800000#32) y = y := by
  simp [Ideal.ofBits, Ideal.ieee]

end Cert.Attention

end
-- ==== Proof.KernelPayload.lean ====
/-
  The kernel body's arithmetic read at an index.

  The three pure terms of the kernel body are read coordinate by coordinate: the softmax weights of one
  [256, 2048] tile are the row-wise weights of the specification, the value slab recast to a matrix keeps its
  entries, and the output tile is the product of the weights with the values.
-/
import proofs.«421843_j74612171866395_3_alg».proof.Proof.Gen.KernelIdeal.Skeleton
import proofs.«421843_j74612171866395_3_alg».proof.Proof.AttentionSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Idealize.SL.Sem Cert.KernelIdeal Cert.KernelIdeal.Gen

/-! ## Layout operations at coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The reduced index `r` of a reduction along the columns, with column `k` put back, is `(r, k)`. -/
theorem lift_ix1_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Layout

/-! ## The two matrix products into a zero accumulator -/

theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The scores' product `[256, 64] × [64, 2048]` into zero, at `(r, j)`: the sum over the 64 features. -/
theorem matmul_qk_apply (x : FVec Ideal S256x64 .bf16) (y : FVec Ideal S64x2048 .bf16) (r : Fin 256) (j : Fin 2048) :
    FloatOps.matmul dot_S256x64_S64x2048_S256x2048_1_0_0_1_n_n none x y (constant (F := Ideal) S256x2048 .f32 0x00000000#32) (ix2 r j)
      = ∑ k : Fin 64, x (ix2 r k) * y (ix2 k j) := by
  rw [Ideal.matmul_constant_zero_apply, ← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 r j) ((ValueIdx.contrEquiv1 dot_S256x64_S64x2048_S256x2048_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S256x64_S64x2048_S256x2048_1_0_0_1_n_n.rhsIdx (ix2 r j) ((ValueIdx.contrEquiv1 dot_S256x64_S64x2048_S256x2048_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output's product `[256, 2048] × [2048, 64]` into zero, at `(r, d)`: the sum over the 2048 keys. -/
theorem matmul_pv_apply (x : FVec Ideal S256x2048 .bf16) (y : FVec Ideal S2048x64 .bf16) (r : Fin 256) (d : Fin 64) :
    FloatOps.matmul dot_S256x2048_S2048x64_S256x64_1_0_0_1_n_n none x y (constant (F := Ideal) S256x64 .f32 0x00000000#32) (ix2 r d)
      = ∑ k : Fin 2048, x (ix2 r k) * y (ix2 k d) := by
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The tile's intermediate values -/

/-- The query row `r` of the loaded block. -/
abbrev qrow (v0 : Vec Ideal S1x1x256x64 .f32) (r : Fin 256) : Fin 64 → EReal :=
  fun d : Fin 64 => v0 (ix4 (0 : Fin 1) (0 : Fin 1) r d)
/-- The keys of the loaded slab. -/
abbrev keys (v3 : Vec Ideal S1x1x2048x64 .f32) : Fin 2048 → Fin 64 → EReal :=
  fun (j' : Fin 2048) (d : Fin 64) => v3 (ix4 (0 : Fin 1) (0 : Fin 1) j' d)
/-- The mask row `r` of the loaded block. -/
abbrev mrow (v8 : Vec Ideal S1x1x256x2048 .i32) (r : Fin 256) : Fin 2048 → BitVec 32 :=
  fun j' : Fin 2048 => v8 (ix4 (0 : Fin 1) (0 : Fin 1) r j')

/-- The score tile: the scaled queries times the transposed keys. -/
def scoreTile (v0 : Vec Ideal S1x1x256x64 .f32) (v3 : Vec Ideal S1x1x2048x64 .f32) : FVec Ideal S256x2048 .f32 :=
  matmul dot_S256x64_S64x2048_S256x2048_1_0_0_1_n_n none
    (truncf .bf16 (mulf (shapeCast S256x64 v0 shapeCasts_S1x1x256x64_S256x64)
      (broadcast S256x64 (Scalar.ofBits (F := Ideal) .f32 0x3E000000#32))) bitsLt_bf16_f32)
    (transpose S64x2048 [1, 0] (truncf .bf16 (shapeCast S2048x64 v3 shapeCasts_S1x1x2048x64_S2048x64) bitsLt_bf16_f32)
      transposes_S2048x64_p1_0_S64x2048)
    (constant (F := Ideal) S256x2048 .f32 0x00000000#32)

/-- The score tile at `(r, j)` is the specification's score of row `r` against key `j`. -/
theorem scoreTile_apply (v0 : Vec Ideal S1x1x256x64 .f32) (v3 : Vec Ideal S1x1x2048x64 .f32) (r : Fin 256) (j : Fin 2048) :
    scoreTile v0 v3 (ix2 r j) = Cert.Attention.score (qrow v0 r) (keys v3) j := by
  unfold scoreTile Cert.Attention.score
  refine (matmul_qk_apply _ _ r j).trans ?_
  refine Finset.sum_congr rfl fun k _ => ?_
  have e1 : shapeCast S256x64 v0 shapeCasts_S1x1x256x64_S256x64 (ix2 r k) = v0 (ix4 (0 : Fin 1) (0 : Fin 1) r k) :=
    shapeCast_11ab_ab_apply v0 _ r k
  have e2 : transpose S64x2048 [1, 0] (truncf .bf16 (shapeCast S2048x64 v3 shapeCasts_S1x1x2048x64_S2048x64) bitsLt_bf16_f32 : FVec Ideal S2048x64 .bf16)
      transposes_S2048x64_p1_0_S64x2048 (ix2 k j) = v3 (ix4 (0 : Fin 1) (0 : Fin 1) j k) :=
    (transpose_ix2_apply _ _ k j).trans (shapeCast_11ab_ab_apply v3 _ j k)
  rw [e2]
  exact congrArg (fun t => (t * Ideal.ofBits .f32 0x3E000000#32) * v3 (ix4 (0 : Fin 1) (0 : Fin 1) j k)) e1

/-- The masked score tile: the fill value where the mask word is zero. -/
def maskedTile (v0 : Vec Ideal S1x1x256x64 .f32) (v3 : Vec Ideal S1x1x2048x64 .f32) (v8 : Vec Ideal S1x1x256x2048 .i32) :
    FVec Ideal S256x2048 .f32 :=
  select (cmpi .eq (shapeCast S256x2048 v8 shapeCasts_S1x1x256x2048_S256x2048 : IVec S256x2048 32) (broadcast S256x2048 0#32))
    (broadcast S256x2048 (Scalar.ofBits (F := Ideal) .f32 0xFF7FFFFF#32)) (scoreTile v0 v3)

/-- The masked score tile at `(r, j)` is the specification's masked score. -/
theorem maskedTile_apply (v0 : Vec Ideal S1x1x256x64 .f32) (v3 : Vec Ideal S1x1x2048x64 .f32) (v8 : Vec Ideal S1x1x256x2048 .i32)
    (r : Fin 256) (j : Fin 2048) :
    maskedTile v0 v3 v8 (ix2 r j) = Cert.Attention.masked (qrow v0 r) (keys v3) (mrow v8 r) j := by
  unfold maskedTile Cert.Attention.masked
  have e1 : (shapeCast S256x2048 v8 shapeCasts_S1x1x256x2048_S256x2048 : IVec S256x2048 32) (ix2 r j) = v8 (ix4 (0 : Fin 1) (0 : Fin 1) r j) :=
    shapeCast_11ab_ab_apply v8 _ r j
  show Scalar.select (IntOp.cmpi .eq ((shapeCast S256x2048 v8 shapeCasts_S1x1x256x2048_S256x2048 : IVec S256x2048 32) (ix2 r j)) 0#32)
    (Ideal.ofBits .f32 0xFF7FFFFF#32) (scoreTile v0 v3 (ix2 r j)) = _
  rw [e1, scoreTile_apply]

/-- The exponentials of a tile shifted by its row maxima. -/
def expTile (T : FVec Ideal S256x2048 .f32) : FVec Ideal S256x2048 .f32 :=
  exp (subf T (broadcastTo S256x2048 (shapeCast S256x1
    (multiReduction (F := Ideal) .maximumf [1] S256 T 0xFF800000#32 reduces_S256x2048_S256 (.inl rfl) rfl)
    shapeCasts_S256_S256x1) broadcasts_S256x1_S256x2048))

/-- The row maximum of a tile, read at row `r`: the fold of `max` from −∞ over the row. -/
theorem rowMaxVec_apply (T : FVec Ideal S256x2048 .f32) (r : Fin 256) :
    multiReduction (F := Ideal) .maximumf [1] S256 T 0xFF800000#32 reduces_S256x2048_S256 (.inl rfl) rfl (ix1 r)
      = (Finset.univ : Finset (Fin 2048)).fold max (Ideal.ofBits .f32 0xFF800000#32) (fun k : Fin 2048 => T (ix2 r k)) := by
  refine (Ideal.multiReduction_maximumf_single T 0xFF800000#32 reduces_S256x2048_S256 (.inl rfl) rfl (ix1 r)).trans ?_
  have hf : (T ∘ reduces_S256x2048_S256.lift (ix1 r)) = fun k : Fin 2048 => T (ix2 r k) :=
    funext fun k => congrArg T (lift_ix1_cols reduces_S256x2048_S256 r k)
  exact congrArg (fun f => Finset.fold max (Ideal.ofBits .f32 0xFF800000#32) f (Finset.univ : Finset (Fin 2048))) hf

/-- The shifted exponentials at `(r, j)`. -/
theorem expTile_apply (T : FVec Ideal S256x2048 .f32) (r : Fin 256) (j : Fin 2048) :
    expTile T (ix2 r j) = Ideal.exp (T (ix2 r j)
      - (Finset.univ : Finset (Fin 2048)).fold max (Ideal.ofBits .f32 0xFF800000#32) (fun k : Fin 2048 => T (ix2 r k))) := by
  unfold expTile
  show Ideal.exp (T (ix2 r j) - broadcastTo S256x2048 (shapeCast S256x1
    (multiReduction (F := Ideal) .maximumf [1] S256 T 0xFF800000#32 reduces_S256x2048_S256 (.inl rfl) rfl)
    shapeCasts_S256_S256x1) broadcasts_S256x1_S256x2048 (ix2 r j)) = _
  rw [broadcastTo_a1_ab_apply, shapeCast_a_a1_apply, rowMaxVec_apply]

/-- A tile divided by its row sums. -/
def normTile (E : FVec Ideal S256x2048 .f32) : FVec Ideal S256x2048 .f32 :=
  divf E (broadcastTo S256x2048 (shapeCast S256x1
    (multiReduction (F := Ideal) .add [1] S256 E 0x00000000#32 reduces_S256x2048_S256 (.inl rfl) rfl)
    shapeCasts_S256_S256x1) broadcasts_S256x1_S256x2048)

/-- The row sum of a tile, read at row `r`. -/
theorem rowSumVec_apply (E : FVec Ideal S256x2048 .f32) (r : Fin 256) :
    multiReduction (F := Ideal) .add [1] S256 E 0x00000000#32 reduces_S256x2048_S256 (.inl rfl) rfl (ix1 r)
      = ∑ k : Fin 2048, E (ix2 r k) := by
  refine (Ideal.multiReduction_add_single E 0x00000000#32 reduces_S256x2048_S256 (.inl rfl) rfl (ix1 r)).trans ?_
  exact Finset.sum_congr rfl fun k _ => congrArg E (lift_ix1_cols reduces_S256x2048_S256 r k)

/-- The normalized tile at `(r, j)`. -/
theorem normTile_apply (E : FVec Ideal S256x2048 .f32) (r : Fin 256) (j : Fin 2048) :
    normTile E (ix2 r j) = Ideal.div (E (ix2 r j)) (∑ k : Fin 2048, E (ix2 r k)) := by
  unfold normTile
  show Ideal.div (E (ix2 r j)) (broadcastTo S256x2048 (shapeCast S256x1
    (multiReduction (F := Ideal) .add [1] S256 E 0x00000000#32 reduces_S256x2048_S256 (.inl rfl) rfl)
    shapeCasts_S256_S256x1) broadcasts_S256x1_S256x2048 (ix2 r j)) = _
  rw [broadcastTo_a1_ab_apply, shapeCast_a_a1_apply, rowSumVec_apply]

/-! ## The three payloads at an index -/

/-- The weights' payload is the normalized shifted exponentials of the masked score tile. -/
theorem pay3_eq (v0 : Vec Ideal S1x1x256x64 .f32) (v3 : Vec Ideal S1x1x2048x64 .f32) (v8 : Vec Ideal S1x1x256x2048 .i32) :
    k0_pay3 (F := Ideal) v0 v3 v8 = normTile (expTile (maskedTile v0 v3 v8)) := rfl

/-- The weights of the tile at `(r, j)` are the specification's weights of row `r`. -/
theorem pay3_apply (v0 : Vec Ideal S1x1x256x64 .f32) (v3 : Vec Ideal S1x1x2048x64 .f32) (v8 : Vec Ideal S1x1x256x2048 .i32) (r : Fin 256) (j : Fin 2048) :
    k0_pay3 (F := Ideal) v0 v3 v8 (ix2 r j)
      = Cert.Attention.weight (fun d : Fin 64 => v0 (ix4 (0 : Fin 1) (0 : Fin 1) r d)) (fun (j' : Fin 2048) (d : Fin 64) => v3 (ix4 (0 : Fin 1) (0 : Fin 1) j' d)) (fun j' : Fin 2048 => v8 (ix4 (0 : Fin 1) (0 : Fin 1) r j')) j := by
  rw [pay3_eq, normTile_apply]
  simp only [expTile_apply, maskedTile_apply]
  rfl

/-- The value slab recast to a matrix keeps its entries. -/
theorem pay2_apply (v6 : Vec Ideal S1x1x2048x64 .f32) (j : Fin 2048) (d : Fin 64) :
    k0_pay2 (F := Ideal) v6 (ix2 j d) = v6 (ix4 (0 : Fin 1) (0 : Fin 1) j d) := by
  unfold k0_pay2
  exact shapeCast_11ab_ab_apply v6 _ j d

/-- The output tile at `(0, 0, r, d)` is the weights' row `r` times the values' column `d`. -/
theorem pay1_apply (v7 : FVec Ideal S2048x64 .f32) (v28 : FVec Ideal S256x2048 .f32) (r : Fin 256) (d : Fin 64) :
    k0_pay1 (F := Ideal) v7 v28 (ix4 (0 : Fin 1) (0 : Fin 1) r d) = ∑ j : Fin 2048, v28 (ix2 r j) * v7 (ix2 j d) := by
  unfold k0_pay1
  refine (shapeCast_ab_11ab_apply _ _ (0 : Fin 1) (0 : Fin 1) r d).trans ?_
  exact matmul_pv_apply _ _ r d

end Cert.KernelIdeal.Payload

end
-- ==== Proof.KernelTiles.lean ====
/-
  The two tiles a grid point stores, read at an index.

  The weight tile at (0, 0, r, j) is the softmax weight of key `j` for tile row `r`, computed from row `r` of the loaded
  query tile, the head's key slab and row `r` of the mask tile; the output tile at (0, 0, r, d) is the row's weighted sum
  of the head's value slab. The recasts between [256, n] and [1, 1, 256, n] keep the last two coordinates.
-/
import proofs.«421843_j74612171866395_3_alg».proof.Proof.KernelPayload
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Tiles

open Cert.KernelIdeal Cert.KernelIdeal.Gen Cert.Attention

/-- The weight tile's payload at (0, 0, r, j): the softmax weight of key `j` for tile row `r`, over the loaded query tile,
    key slab and mask tile (the tile's recast to [1,1,256,2048] keeps the last two coordinates). -/
theorem weightTile_apply (x0 : Vec Ideal S1x1x256x64 .f32) (x1 : Vec Ideal S1x1x2048x64 .f32) (x3 : Vec Ideal S1x1x256x2048 .i32)
    (r : Fin 256) (j : Fin 2048) :
    k0_pay4 (F := Ideal) x0 x1 x3 (ix4 (0 : Fin 1) (0 : Fin 1) r j)
      = weight (fun d : Fin 64 => x0 (ix4 (0 : Fin 1) (0 : Fin 1) r d)) (fun (j' : Fin 2048) (d : Fin 64) => x1 (ix4 (0 : Fin 1) (0 : Fin 1) j' d))
          (fun j' : Fin 2048 => x3 (ix4 (0 : Fin 1) (0 : Fin 1) r j')) j := by
  unfold k0_pay4
  refine (shapeCast_apply _ _ (ix4 (0 : Fin 1) (0 : Fin 1) r j) (ix2 r j) ?_).trans (Payload.pay3_apply x0 x1 x3 r j)
  rw [Shape.rowMajor_val_two, Shape.rowMajor_val_four]
  show r.val * 2048 + j.val = ((0 * 1 + 0) * 256 + r.val) * 2048 + j.val
  omega

/-- The output tile's payload at (0, 0, r, d): the row's weighted sum of the head's values. -/
theorem outTile_apply (x0 : Vec Ideal S1x1x256x64 .f32) (x1 x2 : Vec Ideal S1x1x2048x64 .f32) (x3 : Vec Ideal S1x1x256x2048 .i32)
    (r : Fin 256) (d : Fin 64) :
    k0_pay1 (F := Ideal) (k0_pay2 x2) (k0_pay3 x0 x1 x3) (ix4 (0 : Fin 1) (0 : Fin 1) r d)
      = outRow (fun d : Fin 64 => x0 (ix4 (0 : Fin 1) (0 : Fin 1) r d)) (fun (j' : Fin 2048) (d : Fin 64) => x1 (ix4 (0 : Fin 1) (0 : Fin 1) j' d))
          (fun j' : Fin 2048 => x3 (ix4 (0 : Fin 1) (0 : Fin 1) r j')) (fun (j' : Fin 2048) (d : Fin 64) => x2 (ix4 (0 : Fin 1) (0 : Fin 1) j' d)) d := by
  refine (Payload.pay1_apply _ _ r d).trans ?_
  unfold outRow
  refine Finset.sum_congr rfl fun j _ => ?_
  rw [Payload.pay3_apply x0 x1 x3 r j, Payload.pay2_apply x2 j d]

end Cert.KernelIdeal.Tiles

end
-- ==== Proof.KernelBlocks.lean ====
/-
  From the tiles each grid point writes back to the two whole result arrays.

  The grid is (b, qi, h) over 4 × 8 × 8 points. Point (b, qi, h) reads the query tile at block (b, h, qi, 0) of q, the whole
  batch block (b, 0, 0, 0) of k and of v (eight heads resident, the body taking head h's slab), the mask tile at block
  (b, 0, qi, 0), and writes back the weight tile at block (b, h, qi, 0) of the [4,8,2048,2048] array and the output tile at
  block (b, h, qi, 0) of the [4,8,2048,64] array. Row r of a tile is row 256·qi + r of head h of batch b, so what a point
  writes back is that block of the whole-array attention function of the specification, and the 256 blocks tile each array.
-/
import proofs.«421843_j74612171866395_3_alg».proof.Proof.Gen.KernelIdeal.Value
import proofs.«421843_j74612171866395_3_alg».proof.Proof.KernelPieces
import proofs.«421843_j74612171866395_3_alg».proof.Proof.KernelGrid
import proofs.«421843_j74612171866395_3_alg».proof.Proof.AttentionSpec
import proofs.«421843_j74612171866395_3_alg».proof.Proof.KernelTiles
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attention

variable (m : (ℓ : Loc nD τ sig) → Buf (Elt Ideal) ℓ) (ρ : Dev nD → PrngReg)

/-! ## The argument arrays and the blocks a point loads, at their literal types -/

abbrev qarr (c : Dev nD) : Vec Ideal S4x8x2048x64 .f32 := V m c main_arg0
abbrev karr (c : Dev nD) : Vec Ideal S4x8x2048x64 .f32 := V m c main_arg1
abbrev varr (c : Dev nD) : Vec Ideal S4x8x2048x64 .f32 := V m c main_arg2
abbrev marr (c : Dev nD) : Vec Ideal S4x1x2048x2048 .i32 := V m c main_arg3

abbrev qblk (c : Dev nD) (t : Fin cfg0.N) : Vec Ideal S1x1x256x64 .f32 := iblk m c 0 t
abbrev kblk (c : Dev nD) (t : Fin cfg0.N) : Vec Ideal S1x8x2048x64 .f32 := iblk m c 1 t
abbrev vblk (c : Dev nD) (t : Fin cfg0.N) : Vec Ideal S1x8x2048x64 .f32 := iblk m c 2 t
abbrev mblk (c : Dev nD) (t : Fin cfg0.N) : Vec Ideal S1x1x256x2048 .i32 := iblk m c 3 t

theorem weight_congr {q q' : Fin 64 → EReal} {K K' : Fin 2048 → Fin 64 → EReal} {M M' : Fin 2048 → BitVec 32} {j j' : Fin 2048}
    (hq : q = q') (hK : K = K') (hM : M = M') (hj : j = j') : weight q K M j = weight q' K' M' j' := by
  subst hq hK hM hj; rfl

theorem outRow_congr {q q' : Fin 64 → EReal} {K K' : Fin 2048 → Fin 64 → EReal} {M M' : Fin 2048 → BitVec 32}
    {W W' : Fin 2048 → Fin 64 → EReal} {d d' : Fin 64}
    (hq : q = q') (hK : K = K') (hM : M = M') (hW : W = W') (hd : d = d') : outRow q K M W d = outRow q' K' M' W' d' := by
  subst hq hK hM hW hd; rfl

/-! ## What a point writes back is its block of the whole-array function -/

theorem flushed5_eq (c : Dev nD) (t : Fin cfg0.N) :
    (dats m 0 c).flushed 5 t = ((cfg0.win 5).blk t).view.read (Elt Ideal) (weightArr (qarr m c) (karr m c) (marr m c)) := by
  rw [Value.flushed5_A m c t, Pieces.weightTile_eq]
  funext y
  have hy0 : (y 0).val < 1 := (y 0).isLt
  have hy1 : (y 1).val < 1 := (y 1).isLt
  have hy2 : (y 2).val < 256 := (y 2).isLt
  have hy3 : (y 3).val < 2048 := (y 3).isLt
  obtain ⟨⟨q0, q1, q2, q3⟩, ⟨k0, k1, k2, k3⟩, -, ⟨m0, m1, m2, m3⟩, -, ⟨o0, o1, o2, o3⟩⟩ := Grid.idx_facts t
  obtain ⟨w0, w1, w2, w3⟩ := Grid.idx_weight t
  have hy : (cfg0.win 5).xinj (grid0.coords t) y = ix4 (0 : Fin 1) (0 : Fin 1) (⟨(y 2).val, hy2⟩ : Fin 256) (⟨(y 3).val, hy3⟩ : Fin 2048) :=
    funext fun a => Fin.ext (by
      match a with
      | ⟨0, _⟩ => show (y 0).val = 0; omega
      | ⟨1, _⟩ => show (y 1).val = 0; omega
      | ⟨2, _⟩ => rfl
      | ⟨3, _⟩ => rfl)
  show k0_pay4 (qblk m c t) (Pieces.slab (grid0.coords t) (kblk m c t)) (mblk m c t) ((cfg0.win 5).xinj (grid0.coords t) y)
    = weightArr (qarr m c) (karr m c) (marr m c) (((cfg0.win 5).blk t).view.emb y)
  rw [hy]
  refine (Tiles.weightTile_apply _ _ _ _ _).trans ?_
  unfold weightArr
  refine weight_congr (funext fun d => ?_) (funext fun j' => funext fun d => ?_) (funext fun j' => ?_) (Fin.ext ?_)
  · show V m c main_arg0 (((cfg0.win 0).blk t).view.emb (ix4 (0 : Fin 1) (0 : Fin 1) (⟨(y 2).val, hy2⟩ : Fin 256) d)) = V m c main_arg0 _
    refine congrArg (V m c main_arg0) (funext fun a => Fin.ext ?_)
    match a with
    | ⟨0, _⟩ => show win0_0.index t (0 : Fin 4) * 1 + 1 * 0 = win0_5.index t (0 : Fin 4) * 1 + 1 * (y 0).val; omega
    | ⟨1, _⟩ => show win0_0.index t (1 : Fin 4) * 1 + 1 * 0 = win0_5.index t (1 : Fin 4) * 1 + 1 * (y 1).val; omega
    | ⟨2, _⟩ => show win0_0.index t (2 : Fin 4) * 256 + 1 * (y 2).val = win0_5.index t (2 : Fin 4) * 256 + 1 * (y 2).val; omega
    | ⟨3, _⟩ => show win0_0.index t (3 : Fin 4) * 64 + 1 * d.val = d.val; omega
  · show V m c main_arg1 (((cfg0.win 1).blk t).view.emb ((Rect.unit (s := S1x8x2048x64) (k0_off1 (grid0.coords t)) S1x1x2048x64.size (k0_off1_inb (grid0.coords t))).emb (ix4 (0 : Fin 1) (0 : Fin 1) j' d))) = V m c main_arg1 _
    refine congrArg (V m c main_arg1) (funext fun a => Fin.ext ?_)
    match a with
    | ⟨0, _⟩ => show win0_1.index t (0 : Fin 4) * 1 + 1 * (k0_off1 (grid0.coords t) (0 : Fin 4) + 1 * 0) = win0_5.index t (0 : Fin 4) * 1 + 1 * (y 0).val; omega
    | ⟨1, _⟩ => show win0_1.index t (1 : Fin 4) * 8 + 1 * (k0_off1 (grid0.coords t) (1 : Fin 4) + 1 * 0) = win0_5.index t (1 : Fin 4) * 1 + 1 * (y 1).val; omega
    | ⟨2, _⟩ => show win0_1.index t (2 : Fin 4) * 2048 + 1 * (k0_off1 (grid0.coords t) (2 : Fin 4) + 1 * j'.val) = j'.val; omega
    | ⟨3, _⟩ => show win0_1.index t (3 : Fin 4) * 64 + 1 * (k0_off1 (grid0.coords t) (3 : Fin 4) + 1 * d.val) = d.val; omega
  · show V m c main_arg3 (((cfg0.win 3).blk t).view.emb (ix4 (0 : Fin 1) (0 : Fin 1) (⟨(y 2).val, hy2⟩ : Fin 256) j')) = V m c main_arg3 _
    refine congrArg (V m c main_arg3) (funext fun a => Fin.ext ?_)
    match a with
    | ⟨0, _⟩ => show win0_3.index t (0 : Fin 4) * 1 + 1 * 0 = win0_5.index t (0 : Fin 4) * 1 + 1 * (y 0).val; omega
    | ⟨1, _⟩ => show win0_3.index t (1 : Fin 4) * 1 + 1 * 0 = 0; omega
    | ⟨2, _⟩ => show win0_3.index t (2 : Fin 4) * 256 + 1 * (y 2).val = win0_5.index t (2 : Fin 4) * 256 + 1 * (y 2).val; omega
    | ⟨3, _⟩ => show win0_3.index t (3 : Fin 4) * 2048 + 1 * j'.val = j'.val; omega
  · show (y 3).val = win0_5.index t (3 : Fin 4) * 2048 + 1 * (y 3).val; omega

end Cert.KernelIdeal.Blocks

end
-- ==== Proof.KernelArrays.lean ====
/-
  The kernel's two result arrays as whole-array functions of its arguments.

  The output window moves with the weight window (both at block (b, h, qi, 0)), so what a point writes back to the output
  array is its block of the specification's output function, as for the weights. The 256 blocks of either window tile its
  array: index (b, h, i, ·) lies in the block of point 64·b + 8·(i / 256) + h and every point writes back. Hence each array
  ends holding the specification's function of the argument arrays, and the run's post is restated so.
-/
import proofs.«421843_j74612171866395_3_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Attention

variable (m : (ℓ : Loc nD τ sig) → Buf (Elt Ideal) ℓ) (ρ : Dev nD → PrngReg)

theorem flushed4_eq (c : Dev nD) (t : Fin cfg0.N) :
    (dats m 0 c).flushed 4 t = ((cfg0.win 4).blk t).view.read (Elt Ideal) (outArr (qarr m c) (karr m c) (varr m c) (marr m c)) := by
  rw [Value.flushed4_A m c t, Pieces.outTile_eq]
  funext y
  have hy0 : (y 0).val < 1 := (y 0).isLt
  have hy1 : (y 1).val < 1 := (y 1).isLt
  have hy2 : (y 2).val < 256 := (y 2).isLt
  have hy3 : (y 3).val < 64 := (y 3).isLt
  obtain ⟨⟨q0, q1, q2, q3⟩, ⟨k0, k1, k2, k3⟩, ⟨v0, v1, v2, v3⟩, ⟨m0, m1, m2, m3⟩, ⟨r0, r1, r2, r3⟩, ⟨o0, o1, o2, o3⟩⟩ := Grid.idx_facts t
  have hy : (cfg0.win 4).xinj (grid0.coords t) y = ix4 (0 : Fin 1) (0 : Fin 1) (⟨(y 2).val, hy2⟩ : Fin 256) (⟨(y 3).val, hy3⟩ : Fin 64) :=
    funext fun a => Fin.ext (by
      match a with
      | ⟨0, _⟩ => show (y 0).val = 0; omega
      | ⟨1, _⟩ => show (y 1).val = 0; omega
      | ⟨2, _⟩ => rfl
      | ⟨3, _⟩ => rfl)
  show k0_pay1 (k0_pay2 (Pieces.slab (grid0.coords t) (vblk m c t))) (k0_pay3 (qblk m c t) (Pieces.slab (grid0.coords t) (kblk m c t)) (mblk m c t))
      ((cfg0.win 4).xinj (grid0.coords t) y)
    = outArr (qarr m c) (karr m c) (varr m c) (marr m c) (((cfg0.win 4).blk t).view.emb y)
  rw [hy]
  refine (Tiles.outTile_apply _ _ _ _ _ _).trans ?_
  unfold outArr
  refine outRow_congr (funext fun d => ?_) (funext fun j' => funext fun d => ?_) (funext fun j' => ?_)
    (funext fun j' => funext fun d => ?_) (Fin.ext ?_)
  · show V m c main_arg0 (((cfg0.win 0).blk t).view.emb (ix4 (0 : Fin 1) (0 : Fin 1) (⟨(y 2).val, hy2⟩ : Fin 256) d)) = V m c main_arg0 _
    refine congrArg (V m c main_arg0) (funext fun a => Fin.ext ?_)
    match a with
    | ⟨0, _⟩ => show win0_0.index t (0 : Fin 4) * 1 + 1 * 0 = win0_4.index t (0 : Fin 4) * 1 + 1 * (y 0).val; omega
    | ⟨1, _⟩ => show win0_0.index t (1 : Fin 4) * 1 + 1 * 0 = win0_4.index t (1 : Fin 4) * 1 + 1 * (y 1).val; omega
    | ⟨2, _⟩ => show win0_0.index t (2 : Fin 4) * 256 + 1 * (y 2).val = win0_4.index t (2 : Fin 4) * 256 + 1 * (y 2).val; omega
    | ⟨3, _⟩ => show win0_0.index t (3 : Fin 4) * 64 + 1 * d.val = d.val; omega
  · show V m c main_arg1 (((cfg0.win 1).blk t).view.emb ((Rect.unit (s := S1x8x2048x64) (k0_off1 (grid0.coords t)) S1x1x2048x64.size (k0_off1_inb (grid0.coords t))).emb (ix4 (0 : Fin 1) (0 : Fin 1) j' d))) = V m c main_arg1 _
    refine congrArg (V m c main_arg1) (funext fun a => Fin.ext ?_)
    match a with
    | ⟨0, _⟩ => show win0_1.index t (0 : Fin 4) * 1 + 1 * (k0_off1 (grid0.coords t) (0 : Fin 4) + 1 * 0) = win0_4.index t (0 : Fin 4) * 1 + 1 * (y 0).val; omega
    | ⟨1, _⟩ => show win0_1.index t (1 : Fin 4) * 8 + 1 * (k0_off1 (grid0.coords t) (1 : Fin 4) + 1 * 0) = win0_4.index t (1 : Fin 4) * 1 + 1 * (y 1).val; omega
    | ⟨2, _⟩ => show win0_1.index t (2 : Fin 4) * 2048 + 1 * (k0_off1 (grid0.coords t) (2 : Fin 4) + 1 * j'.val) = j'.val; omega
    | ⟨3, _⟩ => show win0_1.index t (3 : Fin 4) * 64 + 1 * (k0_off1 (grid0.coords t) (3 : Fin 4) + 1 * d.val) = d.val; omega
  · show V m c main_arg3 (((cfg0.win 3).blk t).view.emb (ix4 (0 : Fin 1) (0 : Fin 1) (⟨(y 2).val, hy2⟩ : Fin 256) j')) = V m c main_arg3 _
    refine congrArg (V m c main_arg3) (funext fun a => Fin.ext ?_)
    match a with
    | ⟨0, _⟩ => show win0_3.index t (0 : Fin 4) * 1 + 1 * 0 = win0_4.index t (0 : Fin 4) * 1 + 1 * (y 0).val; omega
    | ⟨1, _⟩ => show win0_3.index t (1 : Fin 4) * 1 + 1 * 0 = 0; omega
    | ⟨2, _⟩ => show win0_3.index t (2 : Fin 4) * 256 + 1 * (y 2).val = win0_4.index t (2 : Fin 4) * 256 + 1 * (y 2).val; omega
    | ⟨3, _⟩ => show win0_3.index t (3 : Fin 4) * 2048 + 1 * j'.val = j'.val; omega
  · show V m c main_arg2 (((cfg0.win 2).blk t).view.emb ((Rect.unit (s := S1x8x2048x64) (k0_off1 (grid0.coords t)) S1x1x2048x64.size (k0_off1_inb (grid0.coords t))).emb (ix4 (0 : Fin 1) (0 : Fin 1) j' d))) = V m c main_arg2 _
    refine congrArg (V m c main_arg2) (funext fun a => Fin.ext ?_)
    match a with
    | ⟨0, _⟩ => show win0_2.index t (0 : Fin 4) * 1 + 1 * (k0_off1 (grid0.coords t) (0 : Fin 4) + 1 * 0) = win0_4.index t (0 : Fin 4) * 1 + 1 * (y 0).val; omega
    | ⟨1, _⟩ => show win0_2.index t (1 : Fin 4) * 8 + 1 * (k0_off1 (grid0.coords t) (1 : Fin 4) + 1 * 0) = win0_4.index t (1 : Fin 4) * 1 + 1 * (y 1).val; omega
    | ⟨2, _⟩ => show win0_2.index t (2 : Fin 4) * 2048 + 1 * (k0_off1 (grid0.coords t) (2 : Fin 4) + 1 * j'.val) = j'.val; omega
    | ⟨3, _⟩ => show win0_2.index t (3 : Fin 4) * 64 + 1 * (k0_off1 (grid0.coords t) (3 : Fin 4) + 1 * d.val) = d.val; omega
  · show (y 3).val = win0_4.index t (3 : Fin 4) * 64 + 1 * (y 3).val; omega

/-! ## The blocks tile the arrays -/

/-- An index of the weight array is in point `t`'s block iff each coordinate is in the block's range on its axis. -/
theorem mem_blk5 (t : Fin cfg0.N) (i : S4x8x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v0_1).slice (win0_5.rect t)).set ↔ _
  rw [View.set_slice_whole, Rect.mem_set_unit]
  exact Iff.rfl

/-- The same for the output array. -/
theorem mem_blk4 (t : Fin cfg0.N) (i : S4x8x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- Index (b, h, i, j) of the weight array is in the block of point 64·b + 8·(i / 256) + h. -/
theorem cover5 (i : S4x8x2048x2048.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 2048 := (i 2).isLt
  have h3 : (i 3).val < 2048 := (i 3).isLt
  have hN : cfg0.N = 256 := N_0
  have hlt : (i 0).val * 64 + (i 2).val / 256 * 8 + (i 1).val < cfg0.N := by rw [hN]; omega
  obtain ⟨w0, w1, w2, w3⟩ := Grid.idx_weight ⟨_, hlt⟩
  have tv : (⟨_, hlt⟩ : Fin cfg0.N).val = (i 0).val * 64 + (i 2).val / 256 * 8 + (i 1).val := rfl
  rw [tv] at w0 w1 w2
  refine ⟨⟨_, hlt⟩, flush0_5 _, (mem_blk5 _ i).mpr fun a => ?_⟩
  match a with
  | ⟨0, _⟩ => show win0_5.index ⟨_, hlt⟩ (0 : Fin 4) * 1 ≤ (i 0).val ∧ (i 0).val < win0_5.index ⟨_, hlt⟩ (0 : Fin 4) * 1 + 1; omega
  | ⟨1, _⟩ => show win0_5.index ⟨_, hlt⟩ (1 : Fin 4) * 1 ≤ (i 1).val ∧ (i 1).val < win0_5.index ⟨_, hlt⟩ (1 : Fin 4) * 1 + 1; omega
  | ⟨2, _⟩ => show win0_5.index ⟨_, hlt⟩ (2 : Fin 4) * 256 ≤ (i 2).val ∧ (i 2).val < win0_5.index ⟨_, hlt⟩ (2 : Fin 4) * 256 + 256; omega
  | ⟨3, _⟩ => show win0_5.index ⟨_, hlt⟩ (3 : Fin 4) * 2048 ≤ (i 3).val ∧ (i 3).val < win0_5.index ⟨_, hlt⟩ (3 : Fin 4) * 2048 + 2048; omega

/-- Index (b, h, i, d) of the output array is in the block of the same point. -/
theorem cover4 (i : S4x8x2048x64.Idx) : ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 2048 := (i 2).isLt
  have h3 : (i 3).val < 64 := (i 3).isLt
  have hN : cfg0.N = 256 := N_0
  have hlt : (i 0).val * 64 + (i 2).val / 256 * 8 + (i 1).val < cfg0.N := by rw [hN]; omega
  obtain ⟨w0, w1, w2, w3⟩ := Grid.idx_weight ⟨_, hlt⟩
  obtain ⟨-, -, -, -, ⟨r0, r1, r2, r3⟩, -⟩ := Grid.idx_facts ⟨_, hlt⟩
  have tv : (⟨_, hlt⟩ : Fin cfg0.N).val = (i 0).val * 64 + (i 2).val / 256 * 8 + (i 1).val := rfl
  rw [tv] at w0 w1 w2
  refine ⟨⟨_, hlt⟩, flush0_4 _, (mem_blk4 _ i).mpr fun a => ?_⟩
  match a with
  | ⟨0, _⟩ => show win0_4.index ⟨_, hlt⟩ (0 : Fin 4) * 1 ≤ (i 0).val ∧ (i 0).val < win0_4.index ⟨_, hlt⟩ (0 : Fin 4) * 1 + 1; omega
  | ⟨1, _⟩ => show win0_4.index ⟨_, hlt⟩ (1 : Fin 4) * 1 ≤ (i 1).val ∧ (i 1).val < win0_4.index ⟨_, hlt⟩ (1 : Fin 4) * 1 + 1; omega
  | ⟨2, _⟩ => show win0_4.index ⟨_, hlt⟩ (2 : Fin 4) * 256 ≤ (i 2).val ∧ (i 2).val < win0_4.index ⟨_, hlt⟩ (2 : Fin 4) * 256 + 256; omega
  | ⟨3, _⟩ => show win0_4.index ⟨_, hlt⟩ (3 : Fin 4) * 64 ≤ (i 3).val ∧ (i 3).val < win0_4.index ⟨_, hlt⟩ (3 : Fin 4) * 64 + 64; omega

/-! ## The result arrays, and the run -/

/-- The weight array ends holding the specification's weights of the argument arrays. -/
theorem final5 (c : Dev nD) : (dats m 0 c).arrAt 5 cfg0.N = weightArr (qarr m c) (karr m c) (marr m c) :=
  (dats m 0 c).arrAt_eq_of_cover 5 (weightArr (qarr m c) (karr m c) (marr m c)) (fun t _ => flushed5_eq m c t) cover5

/-- The output array ends holding the specification's outputs of the argument arrays. -/
theorem final4 (c : Dev nD) : (dats m 0 c).arrAt 4 cfg0.N = outArr (qarr m c) (karr m c) (varr m c) (marr m c) :=
  (dats m 0 c).arrAt_eq_of_cover 4 (outArr (qarr m c) (karr m c) (varr m c) (marr m c)) (fun t _ => flushed4_eq m c t) cover4

/-- Every weakly fair execution of the kernel's program terminates with the two result arrays at the specification's
    functions of the argument arrays, the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1))
          (m ((c : Thread nD τ).loc main_arg2)) (m ((c : Thread nD τ).loc main_arg3))
      ∧ r.2.mem ((c : Thread nD τ).loc main_v0_1) = weightArr (m ((c : Thread nD τ).loc main_arg0)) (m ((c : Thread nD τ).loc main_arg1))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.RefAttention.lean ====
/-
  The reference program's two results are the masked softmax attention of the specification.

  The reference computes, stage by stage over whole arrays: the scaled scores (a product over the 64 features), the
  masked scores, each row's maximum (a fold from −∞, then one more maximum with −∞, which changes nothing), the
  exponentials of the shifted scores, each row's sum of them (from 0), the quotient, and the product with the values.
  Read at an index (b, h, r, j) each stage is the row-wise quantity of the specification for the row (b, h, r):
  the index functions the stages compose are the coordinate tuples below.
-/
import proofs.«421843_j74612171866395_3_alg».proof.Proof.Gen.ReferenceIdeal.Read
import proofs.«421843_j74612171866395_3_alg».proof.Proof.AttentionSpec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Cert.ReferenceIdeal.Read Cert.Attention Idealize.ShloMosaic.ValueIdx

/-! ## The index functions of the stages, at a coordinate tuple -/

theorem lidx_v2_ix4 (b : Fin 4) (h : Fin 8) (r j : Fin 2048) (k : Fin 64) :
    lidx_main_v2 (ix4 b h r j) k = ix4 b h r k :=
  funext fun a => Fin.ext (by match a with | ⟨0, _⟩ => rfl | ⟨1, _⟩ => rfl | ⟨2, _⟩ => rfl | ⟨3, _⟩ => rfl)

theorem ridx_v2_ix4 (b : Fin 4) (h : Fin 8) (r j : Fin 2048) (k : Fin 64) :
    ridx_main_v2 (ix4 b h r j) k = ix4 b h j k :=
  funext fun a => Fin.ext (by match a with | ⟨0, _⟩ => rfl | ⟨1, _⟩ => rfl | ⟨2, _⟩ => rfl | ⟨3, _⟩ => rfl)

theorem idx_call0_v0_ix4 (b : Fin 4) (h : Fin 8) (r j : Fin 2048) :
    idx_main_call0_v0 (ix4 b h r j) = ix4 b (0 : Fin 1) r j :=
  funext fun a => Fin.ext (by match a with | ⟨0, _⟩ => rfl | ⟨1, _⟩ => rfl | ⟨2, _⟩ => rfl | ⟨3, _⟩ => rfl)

theorem idx_v9_v10_ix4 (b : Fin 4) (h : Fin 8) (r j : Fin 2048) :
    idx_main_v9 (idx_main_v10 (ix4 b h r j)) = ix3 b h r :=
  funext fun a => Fin.ext (by match a with | ⟨0, _⟩ => rfl | ⟨1, _⟩ => rfl | ⟨2, _⟩ => rfl)

theorem idx_v14_v15_ix4 (b : Fin 4) (h : Fin 8) (r j : Fin 2048) :
    idx_main_v14 (idx_main_v15 (ix4 b h r j)) = ix3 b h r :=
  funext fun a => Fin.ext (by match a with | ⟨0, _⟩ => rfl | ⟨1, _⟩ => rfl | ⟨2, _⟩ => rfl)

theorem idx_v13_ix3 (b : Fin 4) (h : Fin 8) (r k : Fin 2048) :
    idx_main_v13 (ix3 b h r) k = ix4 b h r k :=
  funext fun a => Fin.ext (by match a with | ⟨0, _⟩ => rfl | ⟨1, _⟩ => rfl | ⟨2, _⟩ => rfl | ⟨3, _⟩ => rfl)

theorem lidx_v17_ix4 (b : Fin 4) (h : Fin 8) (r : Fin 2048) (d : Fin 64) (k : Fin 2048) :
    lidx_main_v17 (ix4 b h r d) k = ix4 b h r k :=
  funext fun a => Fin.ext (by match a with | ⟨0, _⟩ => rfl | ⟨1, _⟩ => rfl | ⟨2, _⟩ => rfl | ⟨3, _⟩ => rfl)

theorem ridx_v17_ix4 (b : Fin 4) (h : Fin 8) (r : Fin 2048) (d : Fin 64) (k : Fin 2048) :
    ridx_main_v17 (ix4 b h r d) k = ix4 b h k d :=
  funext fun a => Fin.ext (by match a with | ⟨0, _⟩ => rfl | ⟨1, _⟩ => rfl | ⟨2, _⟩ => rfl | ⟨3, _⟩ => rfl)

/-- The row index (b, h, r) with coordinate k put back on the reduced last axis is (b, h, r, k). -/
theorem lift_ix3 (hr : S4x8x2048x2048.Reduces [3] S4x8x2048) (b : Fin 4) (h : Fin 8) (r : Fin 2048)
    (k : Fin (S4x8x2048x2048.size 3)) : hr.lift (ix3 b h r) k = ix4 b h r (⟨k.val, k.isLt⟩ : Fin 2048) :=
  funext fun a => Fin.ext (by match a with | ⟨0, _⟩ => rfl | ⟨1, _⟩ => rfl | ⟨2, _⟩ => rfl | ⟨3, _⟩ => rfl)

/-! ## The stages at a coordinate tuple -/

section Stages

variable (x0 x1 x2 : (⟨S4x8x2048x64, .f32⟩ : BufTy).Contents (Elt Ideal))
  (x3 : (⟨S4x1x2048x2048, .i32⟩ : BufTy).Contents (Elt Ideal))

/-- The query row (b, h, r). -/
abbrev qrow (b : Fin 4) (h : Fin 8) (r : Fin 2048) : Fin 64 → EReal := fun d => x0 (ix4 b h r d)
/-- The keys (or the values) of head (b, h). -/
abbrev headOf (x : (⟨S4x8x2048x64, .f32⟩ : BufTy).Contents (Elt Ideal)) (b : Fin 4) (h : Fin 8) :
    Fin 2048 → Fin 64 → EReal := fun j d => x (ix4 b h j d)
/-- The mask row (b, 0, r). -/
abbrev mrow (b : Fin 4) (r : Fin 2048) : Fin 2048 → BitVec 32 := fun j => x3 (ix4 b (0 : Fin 1) r j)

/-- The scaled scores. -/
theorem v2_at (b : Fin 4) (h : Fin 8) (r j : Fin 2048) :
    val_main_v2 (F := Ideal) x0 x1 (ix4 b h r j) = score (qrow x0 b h r) (headOf x1 b h) j := by
  rw [val_main_v2_apply]
  unfold score
  refine Finset.sum_congr rfl fun k _ => ?_
  rw [val_main_v1_apply, val_main_v0_apply, val_main_cst_apply, lidx_v2_ix4, ridx_v2_ix4]
  rfl

/-- The masked scores. -/
theorem v5_at (b : Fin 4) (h : Fin 8) (r j : Fin 2048) :
    val_main_v5 (F := Ideal) x0 x1 x3 (ix4 b h r j) = masked (qrow x0 b h r) (headOf x1 b h) (mrow x3 b r) j := by
  rw [val_main_v5_apply, val_main_call0_v0_apply, val_main_v4_apply, val_main_v3_apply, val_main_c_apply,
    val_main_call0_v1_apply, val_main_cst_0_apply, v2_at, idx_call0_v0_ix4]
  rfl

/-- The fold of the maximum over a row's masked scores, from −∞. -/
theorem v6_at (b : Fin 4) (h : Fin 8) (r : Fin 2048) :
    val_main_v6 (F := Ideal) x0 x1 x3 (ix3 b h r) = rowMax (qrow x0 b h r) (headOf x1 b h) (mrow x3 b r) := by
  have hr : S4x8x2048x2048.Reduces [3] S4x8x2048 := by decide
  unfold val_main_v6
  rw [Host.reduce_eq_fold_single FloatOps.maximumf _ _ reducesTo_S4x8x2048x2048_S4x8x2048_d3 hr h_S_]
  have hf : (val_main_v5 (F := Ideal) x0 x1 x3 ∘ hr.lift (ix3 b h r))
      = masked (qrow x0 b h r) (headOf x1 b h) (mrow x3 b r) :=
    funext fun k => (congrArg (val_main_v5 (F := Ideal) x0 x1 x3) (lift_ix3 hr b h r k)).trans (v5_at x0 x1 x3 b h r _)
  rw [hf]
  rfl

/-- The row's maximum: one more maximum with −∞ changes nothing. -/
theorem v8_at (b : Fin 4) (h : Fin 8) (r : Fin 2048) :
    val_main_v8 (F := Ideal) x0 x1 x3 (ix3 b h r) = rowMax (qrow x0 b h r) (headOf x1 b h) (mrow x3 b r) := by
  rw [val_main_v8_apply, val_main_v7_apply, val_main_cst_2_apply, v6_at]
  exact max_negInf _

/-- The exponentials of the shifted scores. -/
theorem v12_at (b : Fin 4) (h : Fin 8) (r j : Fin 2048) :
    val_main_v12 (F := Ideal) x0 x1 x3 (ix4 b h r j) = expo (qrow x0 b h r) (headOf x1 b h) (mrow x3 b r) j := by
  rw [val_main_v12_apply, val_main_v11_apply, val_main_v10_apply, val_main_v9_apply, idx_v9_v10_ix4, v8_at, v5_at]
  rfl

/-- The row's sum of exponentials: the sum from 0. -/
theorem v13_at (b : Fin 4) (h : Fin 8) (r : Fin 2048) :
    val_main_v13 (F := Ideal) x0 x1 x3 (ix3 b h r)
      = ∑ j' : Fin 2048, expo (qrow x0 b h r) (headOf x1 b h) (mrow x3 b r) j' := by
  rw [val_main_v13_apply, val_main_cst_3_apply]
  refine (congrArg (· + _) Ideal.ofBits_zero_f32).trans ((zero_add _).trans ?_)
  refine Finset.sum_congr rfl fun k _ => ?_
  rw [idx_v13_ix3, v12_at]

/-- The softmax weights. -/
theorem v16_at (b : Fin 4) (h : Fin 8) (r j : Fin 2048) :
    val_main_v16 (F := Ideal) x0 x1 x3 (ix4 b h r j) = weight (qrow x0 b h r) (headOf x1 b h) (mrow x3 b r) j := by
  rw [val_main_v16_apply, val_main_v15_apply, val_main_v14_apply, idx_v14_v15_ix4, v13_at, v12_at]
  rfl

/-- The output rows. -/
theorem v17_at (b : Fin 4) (h : Fin 8) (r : Fin 2048) (d : Fin 64) :
    val_main_v17 (F := Ideal) x0 x1 x2 x3 (ix4 b h r d)
      = outRow (qrow x0 b h r) (headOf x1 b h) (mrow x3 b r) (headOf x2 b h) d := by
  rw [val_main_v17_apply]
  unfold outRow
  refine Finset.sum_congr rfl fun k _ => ?_
  rw [lidx_v17_ix4, ridx_v17_ix4, v16_at]

end Stages

/-! ## The two results -/

theorem weights_eq (x0 x1 : (⟨S4x8x2048x64, .f32⟩ : BufTy).Contents (Elt Ideal)) (x3 : (⟨S4x1x2048x2048, .i32⟩ : BufTy).Contents (Elt Ideal)) :
    Cert.ReferenceIdeal.Read.val_main_v16 (F := Ideal) x0 x1 x3 = Cert.Attention.weightArr x0 x1 x3 := by
  funext i
  exact (congrArg (val_main_v16 (F := Ideal) x0 x1 x3) (eq_ix4 i)).trans (v16_at x0 x1 x3 (i 0) (i 1) (i 2) (i 3))

theorem out_eq (x0 x1 x2 : (⟨S4x8x2048x64, .f32⟩ : BufTy).Contents (Elt Ideal)) (x3 : (⟨S4x1x2048x2048, .i32⟩ : BufTy).Contents (Elt Ideal)) :
    Cert.ReferenceIdeal.Read.val_main_v17 (F := Ideal) x0 x1 x2 x3 = Cert.Attention.outArr x0 x1 x2 x3 := by
  funext i
  exact (congrArg (val_main_v17 (F := Ideal) x0 x1 x2 x3) (eq_ix4 i)).trans (v17_at x0 x1 x2 x3 (i 0) (i 1) (i 2) (i 3))

end Cert.ReferenceIdeal.RefValue

end
-- ==== Proof.lean ====
/-
  Scaled dot-product attention with an integer mask, B = 4, H = 8, S = 2048, D = 64: a tiled kernel against the plain
  array program, equal over the extended reals.

  Both programs compute, for every batch b, head h and query row i,

    s_j   = ∑ d, (q[b,h,i,d] · 1/8) · k[b,h,j,d]                         the scaled scores,
    s'_j  = the most negative finite f32 where mask[b,0,i,j] = 0, else s_j,
    m     = max_j s'_j   (folded from −∞),
    e_j   = exp (s'_j − m),     w_j = e_j / ∑ j', e_j',                   the softmax weights (the second result),
    o_d   = ∑ j, w_j · v[b,h,j,d]                                        the attention output (the first result).

  The kernel works on tiles of 256 query rows of one head with the batch's keys and values resident; its narrowing of the
  matrix products' operands to bf16 is the identity on the extended reals, its products into a zero accumulator are plain
  sums, and its lane maximum and lane sum are the row's maximum and sum. The array program's extra maximum with a −∞ splat
  and its sum started from 0 change nothing. So both sides are the same row-wise function (`Cert.Attention`), with the
  same literal words for 1/8, the fill value and −∞, and no law that would need finite inputs is used: the precondition
  is never opened.

  The frames of the two kernel programs are the generated ones; the array program's frame is its generated run with the
  results dropped; the idealization rewrote nothing, so its claim is `True`; the equivalence sets the kernel's run, with both
  result arrays read as the specification's whole-array functions, beside the array program's run read the same way.
-/
import proofs.«421843_j74612171866395_3_alg».proof.Defs
import proofs.«421843_j74612171866395_3_alg».proof.Proof.Gen.Kernel
import proofs.«421843_j74612171866395_3_alg».proof.Proof.Gen.Kernel.Skeleton
import proofs.«421843_j74612171866395_3_alg».proof.Proof.Gen.Kernel.Launch
import proofs.«421843_j74612171866395_3_alg».proof.Proof.Gen.Kernel.Points
import proofs.«421843_j74612171866395_3_alg».proof.Proof.Gen.Kernel.Frame
import proofs.«421843_j74612171866395_3_alg».proof.Proof.Gen.KernelIdeal
import proofs.«421843_j74612171866395_3_alg».proof.Proof.Gen.KernelIdeal.Skeleton
import proofs.«421843_j74612171866395_3_alg».proof.Proof.Gen.KernelIdeal.Launch
import proofs.«421843_j74612171866395_3_alg».proof.Proof.Gen.KernelIdeal.Points
import proofs.«421843_j74612171866395_3_alg».proof.Proof.Gen.KernelIdeal.Frame
import proofs.«421843_j74612171866395_3_alg».proof.Proof.Gen.ReferenceIdeal
import proofs.«421843_j74612171866395_3_alg».proof.Proof.Gen.Pre_finite_inputs
import proofs.«421843_j74612171866395_3_alg».proof.Proof.Gen.KernelIdeal.Value
import proofs.«421843_j74612171866395_3_alg».proof.Proof.Gen.ReferenceIdeal.Run
import proofs.«421843_j74612171866395_3_alg».proof.Proof.Gen.ReferenceIdeal.Read
import proofs.«421843_j74612171866395_3_alg».proof.Proof.KernelArrays
import proofs.«421843_j74612171866395_3_alg».proof.Proof.RefAttention
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The array program's run, with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on q, k, v and the mask both programs end with the attention output and the softmax weights of
    the specification at those arrays. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.out_eq,
      (hagree c).1, (hagree c).2.1, (hagree c).2.2.1, (hagree c).2.2.2]
  · rw [Cert.ReferenceIdeal.Read.val_main_v16_eq, Cert.ReferenceIdeal.RefValue.weights_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
